-- ==== Defs.lean ====
def Pre_Kernel [hPre_any_inputs : Cert.Pre_any_inputs.Facts] (m : (ℓ : Loc Cert.Kernel.nD Cert.Kernel.τ Cert.Kernel.sig) → Buf (Elt Bits) ℓ) : Prop :=
  ∀ c : Dev Cert.Kernel.nD,
    (Cert.Pre_any_inputs.fn (F := Bits) (m ((c.tc : Thread Cert.Kernel.nD Cert.Kernel.τ).loc Cert.Kernel.main_arg0))) = (fun _ => 1#1)

def Pre_KernelIdeal [hPre_any_inputs : Cert.Pre_any_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_any_inputs.fn (F := Ideal) (m ((c.tc : Thread Cert.KernelIdeal.nD Cert.KernelIdeal.τ).loc Cert.KernelIdeal.main_arg0))) = (fun _ => 1#1)

def Pre_ReferenceIdeal [hPre_any_inputs : Cert.Pre_any_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_any_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_any_inputs : Cert.Pre_any_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_any_inputs : Cert.Pre_any_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_any_inputs : Cert.Pre_any_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_any_inputs : Cert.Pre_any_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_any_inputs : Cert.Pre_any_inputs.Facts),
    frame_Kernel (hKernel := hKernel) (hPre_any_inputs := hPre_any_inputs)
    ∧ frame_KernelIdeal (hKernelIdeal := hKernelIdeal) (hPre_any_inputs := hPre_any_inputs)
    ∧ frame_ReferenceIdeal (hReferenceIdeal := hReferenceIdeal) (hPre_any_inputs := hPre_any_inputs)
    ∧ preserves_Kernel_KernelIdeal
    ∧ algebraic_KernelIdeal_ReferenceIdeal (hKernelIdeal := hKernelIdeal) (hReferenceIdeal := hReferenceIdeal) (hPre_any_inputs := hPre_any_inputs)
-- ==== Pre_any_inputs.lean ====
abbrev S8x1024 : Shape := ⟨2, ![8, 1024]⟩
abbrev S_ : Shape := ⟨0, ![]⟩

class Facts : Prop where

variable [Facts]

def fn {F : FTy → Type} [FloatOps F] (main_arg0 : IVec S8x1024 32) : IVec S_ 1 :=
  let main_c : IVec S_ 1 := constantI S_ 1 1#1
  main_c
-- ==== Kernel.lean ====
abbrev S8x1024 : Shape := ⟨2, ![8, 1024]⟩
abbrev S8x1024x32000 : Shape := ⟨3, ![8, 1024, 32000]⟩
abbrev S8x16x32000 : Shape := ⟨3, ![8, 16, 32000]⟩
abbrev S8x16 : Shape := ⟨2, ![8, 16]⟩
abbrev S8x16x1 : Shape := ⟨3, ![8, 16, 1]⟩

abbrev nBuf : Space → Nat
  | .hbm => 2
  | .vmem => 3
  | .smem => 0
  | _ => 0

abbrev bufTy : (tb : Table) → Fin (tcTables nBuf tb) → BufTy
  | .hbm, ⟨0, _⟩ => ⟨S8x1024, .i32⟩
  | .hbm, ⟨1, _⟩ => ⟨S8x1024x32000, .f32⟩
  | .local _ .vmem, ⟨0, _⟩ => ⟨S8x1024, .i32⟩
  | .local _ .vmem, ⟨1, _⟩ => ⟨S8x16x32000, .f32⟩
  | .local _ .vmem, ⟨2, _⟩ => ⟨S8x16x32000, .f32⟩
  | _, _ => ⟨S8x1024, .i32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_sem0_0 : DmaSem sig := 0
abbrev cc0_sem1_0 : DmaSem sig := 1
abbrev cc0_sem1_1 : DmaSem sig := 2

abbrev nD : Nat := 1
abbrev τ : Topo := Topo.v7x

variable {F : FTy → Type} [FloatOps F]

abbrev grid0 : Pipeline.Grid := ⟨1, ![64], ![false]⟩

def k0_mult1 (i : grid0.Coords) : BitVec 32 :=
  let arg0 : BitVec 32 := BitVec.ofNat 32 (i 0).val
  let c16_i32 : BitVec 32 := 16#32
  let v0 : BitVec 32 := Scalar.muli arg0 c16_i32
  v0
def k0_off1 (i : grid0.Coords) : Fin 2 → Nat :=
  let c0 : Index := 0#32
  let arg0 : BitVec 32 := BitVec.ofNat 32 (i 0).val
  let c16_i32 : BitVec 32 := 16#32
  let v0 : BitVec 32 := Scalar.muli arg0 c16_i32
  let v1 : BitVec 32 := v0
  let v2 : Index := Scalar.indexCast v1
  ![0, v2.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S8x1024 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S8x16x32000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  h_S8x16 : 0 < S8x16.numel
  iota_S8x16x32000_d2_w32 : S8x16x32000.Iotas .tc 32 [2]
  shapeCasts_S8x16_S8x16x1 : S8x16.ShapeCasts S8x16x1
  broadcasts_S8x16x1_S8x16x32000 : S8x16x1.Broadcasts S8x16x32000
  natLt_1_32 : 1 < 32
  inb_S8x16x32000_S8x16x32000_0_0_0 : ∀ a, (![0, 0, 0] : Fin 3 → Nat) a + S8x16x32000.size a ≤ S8x16x32000.size a
  h_S8x16x32000 : 0 < S8x16x32000.numel
  hrank0 : 0 < grid0.rank
  k0_mult1_dvd : ∀ i : grid0.Coords, 16 ∣ (k0_mult1 i).toNat
  k0_off1_inb : ∀ i : grid0.Coords, ∀ a, (k0_off1 i) a + S8x16.size a ≤ S8x1024.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S8x1024.size a ≤ S8x1024.size a
  hwx0_0 : ∀ i : grid0.Coords, EltTy.bits .i32 = 32 ∨ (Rect.block (s := S8x1024) S8x1024.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x16x32000.size a ≤ S8x1024x32000.size a
  hwx0_1 : ∀ i : grid0.Coords, EltTy.bits .f32 = 32 ∨ (Rect.block (s := S8x1024x32000) S8x16x32000.size (cc0_transform_1 i) (hinb0_1 i)).WholeWords (EltTy.packing .f32)

variable [Facts₀]

abbrev win0_0 : Pipeline.Window sig grid0 :=
  Pipeline.Window.ofSpec (Memref.whole main_arg0) S8x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8x16x32000.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8x1024 : Shape := ⟨2, ![8, 1024]⟩
abbrev S8x1024x1 : Shape := ⟨3, ![8, 1024, 1]⟩
abbrev S1x1x32000 : Shape := ⟨3, ![1, 1, 32000]⟩
abbrev S8x1024x32000 : Shape := ⟨3, ![8, 1024, 32000]⟩

abbrev nBuf : Space → Nat
  | .hbm => 7
  | .vmem => 0
  | .smem => 0
  | _ => 0

abbrev bufTy : (tb : Table) → Fin (tcTables nBuf tb) → BufTy
  | .hbm, ⟨0, _⟩ => ⟨S8x1024, .i32⟩
  | .hbm, ⟨1, _⟩ => ⟨S8x1024x1, .i32⟩
  | .hbm, ⟨2, _⟩ => ⟨S1x1x32000, .i32⟩
  | .hbm, ⟨3, _⟩ => ⟨S8x1024x32000, .i32⟩
  | .hbm, ⟨4, _⟩ => ⟨S8x1024x32000, .i32⟩
  | .hbm, ⟨5, _⟩ => ⟨S8x1024x32000, .i1⟩
  | .hbm, ⟨6, _⟩ => ⟨S8x1024x32000, .f32⟩
  | _, _ => ⟨S8x1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_v1 : Ref sig .tc := ⟨.hbm, 2, rfl⟩
abbrev main_call0_v2 : Ref sig .tc := ⟨.hbm, 3, rfl⟩
abbrev main_call0_v3 : Ref sig .tc := ⟨.hbm, 4, rfl⟩
abbrev main_call0_v4 : Ref sig .tc := ⟨.hbm, 5, rfl⟩
abbrev main_v0 : Ref sig .tc := ⟨.hbm, 6, rfl⟩

abbrev nD : Nat := 1
abbrev τ : Topo := Topo.v7x

variable {F : FTy → Type} [FloatOps F]

class Facts₀ : Prop where
  bcast_S8x1024_S8x1024x1_0_1 : S8x1024.BroadcastsInDim S8x1024x1 (![0, 1] : Fin 2 → Fin S8x1024x1.rank)
  bcast_S8x1024x1_S8x1024x32000_0_1_2 : S8x1024x1.BroadcastsInDim S8x1024x32000 (![0, 1, 2] : Fin 3 → Fin S8x1024x32000.rank)
  bcast_S1x1x32000_S8x1024x32000_0_1_2 : S1x1x32000.BroadcastsInDim S8x1024x32000 (![0, 1, 2] : Fin 3 → Fin S8x1024x32000.rank)

variable [Facts₀]

class Facts : Prop extends Facts₀ where

variable [Facts]
-- ==== Proof.OneHotSpec.lean ====
/-
  The one-hot encoding as a function on indices, and the two scalar facts that join the programs to it.

  For an integer array `x : [8, 1024]` of 32-bit words the encoding is the array `[8, 1024, 32000]` whose entry at
  `(b, s, k)` is `1` when the word `x[b, s]` is the word of the class number `k`, and `0` otherwise. A word that
  is no class number (negative, or 32000 and above) gives a row of zeros: no index `k < 32000` has its word.

  Both programs reach an entry by comparing the two words for equality, which gives one bit, and turning the bit into
  a number. One program reads the bit as an unsigned integer; the other first widens it with zeros to 32 bits and reads
  that signed. A zero-extended bit is `0` or `1` either way, so over the extended reals both are the indicator.
-/
import Idealize.ShloMosaic.PureOps.Ideal
import Idealize.ShloMosaic.Lib.ValueIdx

noncomputable section

namespace Cert.OneHot

open Idealize.ShloMosaic Idealize.ShloMosaic.ValueIdx

/-- The indicator of equality of two words, as an extended real. -/
def ind (a b : BitVec 32) : EReal := if a = b then 1 else 0

/-- The one-hot encoding of `x`, index by index: at `(b, s, k)` the indicator that `x[b, s]` is the word of `k`. -/
def onehot (x : (⟨2, ![8, 1024]⟩ : Shape).Idx → BitVec 32) : (⟨3, ![8, 1024, 32000]⟩ : Shape).Idx → EReal :=
  fun i => ind (x (ix2 (i 0) (i 1))) (BitVec.ofNat 32 (i 2).val)

/-- The equality bit of two words is `1` exactly when they are equal. -/
theorem cmpi_eq_of_eq {a b : BitVec 32} (h : a = b) : IntOp.cmpi .eq a b = 1#1 := by
  subst h; simp [IntOp.cmpi]

theorem cmpi_eq_of_ne {a b : BitVec 32} (h : a ≠ b) : IntOp.cmpi .eq a b = 0#1 := by
  have hb : (a == b) = false := beq_eq_false_iff_ne.mpr h
  simp [IntOp.cmpi, hb]

/-- The equality bit read unsigned is the indicator. -/
theorem uitofp_cmpi_eq (a b : BitVec 32) :
    FloatOps.uitofp (F := Ideal) .f32 (IntOp.cmpi .eq a b) = ind a b := by
  show (((IntOp.cmpi .eq a b).toNat : ℝ) : EReal) = ind a b
  unfold ind
  by_cases h : a = b
  · rw [cmpi_eq_of_eq h, if_pos h]; norm_num
  · rw [cmpi_eq_of_ne h, if_neg h]; norm_num

/-- The equality bit widened with zeros to 32 bits and read signed is the indicator too. -/
theorem sitofp_extui_cmpi_eq (a b : BitVec 32) :
    FloatOps.sitofp (F := Ideal) .f32 ((IntOp.cmpi .eq a b).setWidth 32) = ind a b := by
  show ((((IntOp.cmpi .eq a b).setWidth 32).toInt : ℝ) : EReal) = ind a b
  unfold ind
  by_cases h : a = b
  · rw [cmpi_eq_of_eq h, if_pos h]
    rw [show ((1#1 : BitVec 1).setWidth 32).toInt = 1 from by decide]; norm_num
  · rw [cmpi_eq_of_ne h, if_neg h]
    rw [show ((0#1 : BitVec 1).setWidth 32).toInt = 0 from by decide]; norm_num

end Cert.OneHot

end
-- ==== Proof.RefOneHot.lean ====
/-
  The reference program computes the one-hot encoding.

  Its six operations are: `x` given a trailing unit axis, the class numbers `0 … 31999` along a third axis, both
  broadcast to `[8, 1024, 32000]`, compared for equality, and the resulting bit converted to a float as an unsigned
  integer. Read at an index `(b, s, k)` the two broadcasts pick `x[b, s]` and the word of `k`, so the entry is the
  indicator that the two words are equal.
-/
import proofs.«137743_j17884243821254_1_alg».proof.Proof.Gen.ReferenceIdeal.Read
import proofs.«137743_j17884243821254_1_alg».proof.Proof.OneHotSpec
import Idealize.ShloMosaic.Lib.ValueIdx

noncomputable section

namespace Cert.ReferenceIdeal.RefValue

open Cert.ReferenceIdeal Cert.ReferenceIdeal.Read Idealize.ShloMosaic Idealize.ShloMosaic.ValueIdx

/-- The two broadcasts of `x` read `x` at the first two coordinates. -/
theorem idx_x (i : S8x1024x32000.Idx) : idx_main_call0_v0 (idx_main_call0_v2 i) = ix2 (i 0) (i 1) :=
  funext fun a => match a with | ⟨0, _⟩ => rfl | ⟨1, _⟩ => rfl

/-- The reference's result, as a whole array, is the one-hot encoding of its argument. -/
theorem ref_is_onehot (x0 : (⟨S8x1024, .i32⟩ : BufTy).Contents (Elt Ideal)) :
    val_main_v0 (F := Ideal) x0 = Cert.OneHot.onehot x0 := by
  funext i
  rw [val_main_v0_apply, val_main_call0_v4_apply, val_main_call0_v2_apply, val_main_call0_v3_apply,
    val_main_call0_v0_apply, val_main_call0_v1_apply, Cert.OneHot.uitofp_cmpi_eq, idx_x]
  rfl

end Cert.ReferenceIdeal.RefValue

end
-- ==== Proof.KernelOneHot.lean ====
/-
  The kernel computes the one-hot encoding.

  The kernel runs over 64 grid points. At point `t` it holds the whole of `x : [8, 1024]` and fills the block
  `[8, 16, 32000]` of the result whose middle coordinates are `16 t … 16 t + 15`: it loads the columns
  `16 t … 16 t + 15` of `x`, gives them a trailing unit axis, broadcasts them along the class axis, compares them with
  the class numbers `0 … 31999` laid along that axis, widens the resulting bit with zeros to 32 bits and converts it, read
  signed, to a float. So the entry at `(b, s, k)` of block `t` is the indicator that `x[b, 16 t + s]` is the word of `k`
  — entry `(b, 16 t + s, k)` of the one-hot encoding. The 64 blocks tile the result (row `r` of the middle axis lies in
  block `r / 16`), so after the run the result array is the encoding.
-/
import proofs.«137743_j17884243821254_1_alg».proof.Proof.Gen.KernelIdeal.Value
import proofs.«137743_j17884243821254_1_alg».proof.Proof.OneHotSpec
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem
open Idealize.ShloMosaic.Pipeline (Dat)

namespace Cert.KernelIdeal.KValue

open Cert.KernelIdeal Cert.KernelIdeal.Gen Idealize.ShloMosaic.ValueIdx

/-! ## One entry of the block the body stores -/

/-- The class numbers laid along the last axis: at `(b, s, k)` the word of `k`. -/
theorem iota_lane (h : S8x16x32000.Iotas .tc 32 [2]) (b : Fin 8) (s : Fin 16) (k : Fin 32000) :
    iota .tc S8x16x32000 32 [2] h (ix3 b s k) = BitVec.ofNat 32 k.val := by
  show BitVec.ofNat 32 (0 * 32000 + k.val) = _
  rw [Nat.zero_mul, Nat.zero_add]

/-- A `[8, 16]` array given a trailing unit axis and broadcast along it reads, at `(b, s, k)`, its entry `(b, s)`. -/
theorem col_bcast (y : IVec S8x16 32) (h1 : S8x16.ShapeCasts S8x16x1) (h2 : S8x16x1.Broadcasts S8x16x32000)
    (b : Fin 8) (s : Fin 16) (k : Fin 32000) :
    broadcastTo S8x16x32000 (shapeCast S8x16x1 y h1) h2 (ix3 b s k) = y (ix2 b s) := by
  rw [broadcastTo_apply _ h2 (ix3 b s k) (ix3 b s (0 : Fin 1)) (fun a => match a with
      | ⟨0, _⟩ => by show b.val = if (8 : Nat) = 1 then 0 else b.val; rw [if_neg (by decide)]
      | ⟨1, _⟩ => by show s.val = if (16 : Nat) = 1 then 0 else s.val; rw [if_neg (by decide)]
      | ⟨2, _⟩ => by show 0 = if (1 : Nat) = 1 then 0 else k.val; rw [if_pos rfl]),
    shapeCast_apply _ h1 (ix3 b s (0 : Fin 1)) (ix2 b s) (by
      rw [Shape.rowMajor_val_two, Shape.rowMajor_val_three]
      show b.val * 16 + s.val = (b.val * 16 + s.val) * 1 + 0
      omega)]

/-- The stored block at `(b, s, k)`, over the extended reals: the indicator that the loaded word at `(b, s)` is the
    word of `k`. -/
theorem stored_apply (cols : Vec Ideal S8x16 .i32) (b : Fin 8) (s : Fin 16) (k : Fin 32000) :
    k0_pay1 (F := Ideal) cols (ix3 b s k) = Cert.OneHot.ind (cols (ix2 b s)) (BitVec.ofNat 32 k.val) := by
  unfold k0_pay1
  refine Eq.trans ?_ (Cert.OneHot.sitofp_extui_cmpi_eq _ _)
  show FloatOps.sitofp (F := Ideal) .f32 ((IntOp.cmpi .eq (broadcastTo S8x16x32000 (shapeCast S8x16x1 cols _) _ (ix3 b s k)) (iota .tc S8x16x32000 32 [2] _ (ix3 b s k))).setWidth 32) = _
  rw [col_bcast, iota_lane]

/-! ## What the body leaves in the output's staging buffer -/

variable {F : FTy → Type} [FloatOps F]

theorem zero3 : (![0, 0, 0] : Fin 3 → Nat) = fun _ => 0 := funext fun a => by fin_cases a <;> rfl

/-- The body's one store covers the whole block, so the buffer ends holding the stored value: the body's arithmetic
    applied to the sixteen columns of `x` it loaded. -/
theorem left_in_buffer (c : Dev nD) (i : grid0.Coords) (a1 : Memref sig .tc .vmem S8x1024 .i32) (h1 : a1.IsWhole)
    (a2 : Memref sig .tc .vmem S8x16x32000 .f32) (h2 : a2.IsWhole) (x : Vec F S8x1024 .i32) :
    out0_A_1 c i a1 h1 a2 h2 x
      = k0_pay1 (View.ld x (Rect.unit (s := S8x1024) (k0_off1 i) S8x16.size (Facts₀.k0_off1_inb i))) := by
  unfold out0_A_1
  rw [View.read_writes_eq_canon _ _ _ (cover0_A_1 c i a1 h1 a2 h2 x)]
  unfold kernelRun0_A
  dsimp only
  sl_unfold_words
  rw [View.canon_unit_zero zero3]
  simp only [View.readAt_eq_ld, h1.read_unread]

/-! ## From the blocks to the array -/

variable (m : (ℓ : Loc nD τ sig) → Buf (Elt Ideal) ℓ) (ρ : Dev nD → PrngReg)

/-- The index maps over the 64 points: the load starts at column `16 t`, which is where the output's block starts on
    the middle axis; `x`'s one block and the output's other two block coordinates are `0`. -/
theorem point_facts : ∀ t : Fin cfg0.N,
    k0_off1 (grid0.coords t) 0 = 0 ∧ k0_off1 (grid0.coords t) 1 = win0_1.index t (1 : Fin 3) * 16
    ∧ win0_0.index t (0 : Fin 2) = 0 ∧ win0_0.index t (1 : Fin 2) = 0
    ∧ win0_1.index t (0 : Fin 3) = 0 ∧ win0_1.index t (2 : Fin 3) = 0 ∧ win0_1.index t (1 : Fin 3) < 64 :=
  (by decide +kernel : ∀ t : Fin grid0.N, _)

/-- What point `t` writes back is block `t` of the one-hot encoding of `x`. -/
theorem written_back (c : Dev nD) (t : Fin cfg0.N) :
    (dats m 0 c).flushed 1 t = ((cfg0.win 1).blk t).view.read (Elt Ideal) (Cert.OneHot.onehot (V m c main_arg0)) := by
  rw [Value.flushed1_A, left_in_buffer]
  obtain ⟨e0, e1, e2, e3, e4, e5, e6⟩ := point_facts t
  funext j
  obtain ⟨b, s, k, rfl⟩ : ∃ (b : Fin 8) (s : Fin 16) (k : Fin 32000), j = ix3 b s k := ⟨j 0, j 1, j 2, eq_ix3 j⟩
  show k0_pay1 (F := Ideal) (View.ld (iblk m c 0 t) (Rect.unit (s := S8x1024) (k0_off1 (grid0.coords t)) S8x16.size (Facts₀.k0_off1_inb _))) (ix3 b s k)
      = Cert.OneHot.onehot (V m c main_arg0) (((cfg0.win 1).blk t).view.emb (ix3 b s k))
  refine (stored_apply _ b s k).trans ?_
  unfold Cert.OneHot.onehot
  -- the loaded word at (b, s) is x[b, 16 t + s], the first two coordinates of the block's entry in the array
  have hx : View.ld (iblk m c 0 t) (Rect.unit (s := S8x1024) (k0_off1 (grid0.coords t)) S8x16.size (Facts₀.k0_off1_inb _)) (ix2 b s)
      = V m c main_arg0 (ix2 ((((cfg0.win 1).blk t).view.emb (ix3 b s k)) 0) ((((cfg0.win 1).blk t).view.emb (ix3 b s k)) 1)) := by
    show V m c main_arg0 (((cfg0.win 0).blk t).view.emb ((Rect.unit (s := S8x1024) (k0_off1 (grid0.coords t)) S8x16.size (Facts₀.k0_off1_inb _)).idx (ix2 b s))) = _
    refine congrArg (V m c main_arg0) (funext fun a => Fin.ext ?_)
    match a with
    | ⟨0, _⟩ =>
      show win0_0.index t (0 : Fin 2) * 8 + 1 * (k0_off1 (grid0.coords t) 0 + 1 * b.val) = win0_1.index t (0 : Fin 3) * 8 + 1 * b.val
      omega
    | ⟨1, _⟩ =>
      show win0_0.index t (1 : Fin 2) * 1024 + 1 * (k0_off1 (grid0.coords t) 1 + 1 * s.val) = win0_1.index t (1 : Fin 3) * 16 + 1 * s.val
      omega
  -- and the class coordinate is unchanged
  have hk : ((((cfg0.win 1).blk t).view.emb (ix3 b s k)) 2).val = k.val := by
    show win0_1.index t (2 : Fin 3) * 32000 + 1 * k.val = k.val
    omega
  rw [hx, hk]

/-- An index of the result lies in point `t`'s block iff each coordinate is in the block's range on its axis. -/
theorem mem_block (t : Fin cfg0.N) (i : S8x1024x32000.Idx) :
    i ∈ ((cfg0.win 1).blk t).view.set ↔ ∀ a : Fin 3, win0_1.index t a * S8x16x32000.size a ≤ (i a).val ∧ (i a).val < win0_1.index t a * S8x16x32000.size a + S8x16x32000.size a := by
  show i ∈ ((View.whole main_v0).slice (win0_1.rect t)).set ↔ _
  rw [View.set_slice_whole, Rect.mem_set_unit]
  exact Iff.rfl

/-- Every block `(0, q, 0)`, `q < 64`, is some point's. -/
theorem block_of : ∀ q : Fin 64, ∃ t : Fin cfg0.N, win0_1.index t = ![0, q.val, 0] :=
  (by decide +kernel : ∀ q : Fin 64, ∃ t : Fin grid0.N, win0_1.index t = ![0, q.val, 0])

/-- The blocks tile the result: the index `(b, r, k)` lies in block `r / 16`. -/
theorem tiled (i : S8x1024x32000.Idx) :
    ∃ t : Fin cfg0.N, (cfg0.win 1).flush t = true ∧ i ∈ ((cfg0.win 1).blk t).view.set := by
  have h0 : (i 0).val < 8 := (i 0).isLt
  have h1 : (i 1).val < 1024 := (i 1).isLt
  have h2 : (i 2).val < 32000 := (i 2).isLt
  obtain ⟨t, ht⟩ := block_of ⟨(i 1).val / 16, by omega⟩
  have q0 : win0_1.index t (0 : Fin 3) = 0 := congrFun ht 0
  have q1 : win0_1.index t (1 : Fin 3) = (i 1).val / 16 := congrFun ht 1
  have q2 : win0_1.index t (2 : Fin 3) = 0 := congrFun ht 2
  refine ⟨t, flush0_1 t, ?_⟩
  rw [mem_block]
  intro a
  match a with
  | ⟨0, _⟩ => show win0_1.index t (0 : Fin 3) * 8 ≤ (i 0).val ∧ (i 0).val < win0_1.index t (0 : Fin 3) * 8 + 8; omega
  | ⟨1, _⟩ => show win0_1.index t (1 : Fin 3) * 16 ≤ (i 1).val ∧ (i 1).val < win0_1.index t (1 : Fin 3) * 16 + 16; omega
  | ⟨2, _⟩ => show win0_1.index t (2 : Fin 3) * 32000 ≤ (i 2).val ∧ (i 2).val < win0_1.index t (2 : Fin 3) * 32000 + 32000; omega

/-- After the run the result array is the one-hot encoding of `x`. -/
theorem result_is_onehot (c : Dev nD) : (dats m 0 c).arrAt 1 cfg0.N = Cert.OneHot.onehot (V m c main_arg0) :=
  (dats m 0 c).arrAt_eq_of_cover 1 (Cert.OneHot.onehot (V m c main_arg0)) (fun t _ => written_back m c t) tiled

/-- The kernel's run: it ends with the result at the one-hot encoding of `x`, and `x` unchanged. -/
theorem run : θ_run defs (onTc (τ := τ) (main (F := Ideal))) ⟨m, fun _ => 0, ρ⟩ fun r => ∀ c : Dev nD,
      r.2.mem ((c : Thread nD τ).loc main_v0) = Cert.OneHot.onehot (m ((c : Thread nD τ).loc main_arg0))
      ∧ r.2.mem ((c : Thread nD τ).loc main_arg0) = m ((c : Thread nD τ).loc main_arg0) :=
  (θ_run defs _ _).mono (fun r h c => ⟨(h c).1.trans (result_is_onehot m c), (h c).2⟩) (Value.run_blocks m ρ)

end Cert.KernelIdeal.KValue

end
-- ==== Proof.lean ====
/-
  A one-hot encoder against `jax.nn.one_hot`: for `x : int32[8, 1024]` both programs produce the array
  `[8, 1024, 32000]` whose entry `(b, s, k)` is `1` when `x[b, s] = k` and `0` otherwise.

  Both compare the word `x[b, s]` with the word of the class number `k` and turn the resulting bit into a float — the
  kernel by widening the bit with zeros and reading it signed, the reference by reading the bit unsigned; either way the
  value is `0` or `1`, so over the extended reals both entries are the same indicator (OneHotSpec). The reference's six
  array operations read at an index give that indicator (RefOneHot). The kernel writes the result in 64 blocks of 16
  consecutive values of `s`; block `t` holds the indicator for `x[b, 16 t + s]`, and the blocks tile the result
  (KernelOneHot). No arithmetic on the extended reals is involved and nothing is asked of the input: a word that is
  no class number gives a row of zeros in both programs.

  The kernel's idealization rewrote no operation, so that conjunct is `True`; the three runs terminate without fault and
  leave `x` unchanged.
-/
import proofs.«137743_j17884243821254_1_alg».proof.Defs
import proofs.«137743_j17884243821254_1_alg».proof.Proof.Gen.Kernel
import proofs.«137743_j17884243821254_1_alg».proof.Proof.Gen.Kernel.Skeleton
import proofs.«137743_j17884243821254_1_alg».proof.Proof.Gen.Kernel.Launch
import proofs.«137743_j17884243821254_1_alg».proof.Proof.Gen.Kernel.Points
import proofs.«137743_j17884243821254_1_alg».proof.Proof.Gen.Kernel.Frame
import proofs.«137743_j17884243821254_1_alg».proof.Proof.Gen.KernelIdeal
import proofs.«137743_j17884243821254_1_alg».proof.Proof.Gen.KernelIdeal.Skeleton
import proofs.«137743_j17884243821254_1_alg».proof.Proof.Gen.KernelIdeal.Launch
import proofs.«137743_j17884243821254_1_alg».proof.Proof.Gen.KernelIdeal.Points
import proofs.«137743_j17884243821254_1_alg».proof.Proof.Gen.KernelIdeal.Frame
import proofs.«137743_j17884243821254_1_alg».proof.Proof.Gen.ReferenceIdeal
import proofs.«137743_j17884243821254_1_alg».proof.Proof.Gen.Pre_any_inputs
import proofs.«137743_j17884243821254_1_alg».proof.Proof.Gen.KernelIdeal.Value
import proofs.«137743_j17884243821254_1_alg».proof.Proof.Gen.ReferenceIdeal.Run
import proofs.«137743_j17884243821254_1_alg».proof.Proof.Gen.ReferenceIdeal.Read
import proofs.«137743_j17884243821254_1_alg».proof.Proof.OneHotSpec
import proofs.«137743_j17884243821254_1_alg».proof.Proof.RefOneHot
import proofs.«137743_j17884243821254_1_alg».proof.Proof.KernelOneHot
import Idealize.ShloMosaic.Adequacy
import Idealize.ShloMosaic.Init

noncomputable section

namespace Cert.Proof

open Idealize.ShloMosaic Idealize.ShloMosaic.TcCoe Idealize.SL.Sem

/-- The kernel at the word level runs and leaves `x` unchanged. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference runs and leaves `x` unchanged: its run, with the result dropped. -/
theorem frame_r : Cert.frame_ReferenceIdeal := fun m ρ _ =>
  (θ_run Cert.ReferenceIdeal.defs _ _).mono (fun _ h c => (h c).2) (Cert.ReferenceIdeal.Value.run (F := Ideal) m ρ)

/-- From memories agreeing on `x`, both programs end with the result at the one-hot encoding of `x`. -/
theorem algebraic : Cert.algebraic_KernelIdeal_ReferenceIdeal := by
  intro m ρ m' ρ' _ hagree
  refine ⟨fun c => Cert.OneHot.onehot (m ((c.tc : Thread Cert.KernelIdeal.nD Cert.KernelIdeal.τ).loc Cert.KernelIdeal.main_arg0)),
    Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v0_eq, Cert.ReferenceIdeal.RefValue.ref_is_onehot, hagree c]

theorem claim : Cert.Claim := ⟨Cert.Kernel.Gen.facts, Cert.KernelIdeal.Gen.facts, Cert.ReferenceIdeal.Gen.facts, Cert.Pre_any_inputs.Gen.facts,
  frame_k, frame_ki, frame_r, trivial, algebraic⟩

end Cert.Proof

end
